-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v8_0)) (v1 : (c : Dev Cert.KernelIdeal.nD) → Buf (Elt Ideal) ((c.tc : Thread Cert.KernelIdeal.nD Cert.KernelIdeal.τ).loc Cert.KernelIdeal.main_v8_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8_0) = v0 c
          ∧ r.2.mem ((c.tc : Thread Cert.KernelIdeal.nD Cert.KernelIdeal.τ).loc Cert.KernelIdeal.main_v8_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v30) = v0 c
          ∧ r.2.mem ((c.tc : Thread Cert.ReferenceIdeal.nD Cert.ReferenceIdeal.τ).loc Cert.ReferenceIdeal.main_v28) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x2048 : Shape := ⟨2, ![8192, 2048]⟩
abbrev S2048x4096 : Shape := ⟨2, ![2048, 4096]⟩
abbrev S2048 : Shape := ⟨1, ![2048]⟩
abbrev S_ : Shape := ⟨0, ![]⟩

class Facts : Prop where
  bcast_S_S8192x2048 : S_.BroadcastsInDim S8192x2048 (![] : Fin 0 → Fin S8192x2048.rank)
  reducesTo_S8192x2048_S_d0_1 : S8192x2048.ReducesTo [0, 1] S_
  h_S_ : 0 < S_.numel
  bcast_S_S2048x4096 : S_.BroadcastsInDim S2048x4096 (![] : Fin 0 → Fin S2048x4096.rank)
  reducesTo_S2048x4096_S_d0_1 : S2048x4096.ReducesTo [0, 1] S_
  bcast_S_S2048 : S_.BroadcastsInDim S2048 (![] : Fin 0 → Fin S2048.rank)
  reducesTo_S2048_S_d0 : S2048.ReducesTo [0] S_

variable [Facts]

def fn_part2 {F : FTy → Type} [FloatOps F] (main_arg7 : FVec F S2048x4096 .f32) (main_arg8 : FVec F S2048 .f32) (main_v33 : IVec S_ 1) : IVec S_ 1 :=
  let main_v34 : FVec F S2048x4096 .f32 := Host.absf main_arg7
  let main_cst_12 : FVec F S_ .f32 := constant S_ .f32 0x7F800000#32
  let main_v35 : FVec F S2048x4096 .f32 := broadcastInDim S2048x4096 ![] bcast_S_S2048x4096 main_cst_12
  let main_v36 : IVec S2048x4096 1 := cmpf .olt main_v34 main_v35
  let main_c_13 : IVec S_ 1 := constantI S_ 1 1#1
  let main_v37 : IVec S_ 1 := (fun x v => Host.reduce IntOp.andi x v reducesTo_S2048x4096_S_d0_1 h_S_) main_v36 main_c_13
  let main_v38 : IVec S_ 1 := andi main_v33 main_v37
  let main_v39 : FVec F S2048 .f32 := Host.absf main_arg8
  let main_cst_14 : FVec F S_ .f32 := constant S_ .f32 0x7F800000#32
  let main_v40 : FVec F S2048 .f32 := broadcastInDim S2048 ![] bcast_S_S2048 main_cst_14
  let main_v41 : IVec S2048 1 := cmpf .olt main_v39 main_v40
  let main_c_15 : IVec S_ 1 := constantI S_ 1 1#1
  let main_v42 : IVec S_ 1 := (fun x v => Host.reduce IntOp.andi x v reducesTo_S2048_S_d0 h_S_) main_v41 main_c_15
  let main_v43 : IVec S_ 1 := andi main_v38 main_v42
  main_v43

def fn_part1 {F : FTy → Type} [FloatOps F] (main_arg4 : FVec F S2048 .f32) (main_arg5 : FVec F S2048x4096 .f32) (main_arg6 : FVec F S2048 .f32) (main_arg7 : FVec F S2048x4096 .f32) (main_arg8 : FVec F S2048 .f32) (main_v13 : IVec S_ 1) (main_v16 : IVec S2048x4096 1) : IVec S_ 1 :=
  let main_c_5 : IVec S_ 1 := constantI S_ 1 1#1
  let main_v17 : IVec S_ 1 := (fun x v => Host.reduce IntOp.andi x v reducesTo_S2048x4096_S_d0_1 h_S_) main_v16 main_c_5
  let main_v18 : IVec S_ 1 := andi main_v13 main_v17
  let main_v19 : FVec F S2048 .f32 := Host.absf main_arg4
  let main_cst_6 : FVec F S_ .f32 := constant S_ .f32 0x7F800000#32
  let main_v20 : FVec F S2048 .f32 := broadcastInDim S2048 ![] bcast_S_S2048 main_cst_6
  let main_v21 : IVec S2048 1 := cmpf .olt main_v19 main_v20
  let main_c_7 : IVec S_ 1 := constantI S_ 1 1#1
  let main_v22 : IVec S_ 1 := (fun x v => Host.reduce IntOp.andi x v reducesTo_S2048_S_d0 h_S_) main_v21 main_c_7
  let main_v23 : IVec S_ 1 := andi main_v18 main_v22
  let main_v24 : FVec F S2048x4096 .f32 := Host.absf main_arg5
  let main_cst_8 : FVec F S_ .f32 := constant S_ .f32 0x7F800000#32
  let main_v25 : FVec F S2048x4096 .f32 := broadcastInDim S2048x4096 ![] bcast_S_S2048x4096 main_cst_8
  let main_v26 : IVec S2048x4096 1 := cmpf .olt main_v24 main_v25
  let main_c_9 : IVec S_ 1 := constantI S_ 1 1#1
  let main_v27 : IVec S_ 1 := (fun x v => Host.reduce IntOp.andi x v reducesTo_S2048x4096_S_d0_1 h_S_) main_v26 main_c_9
  let main_v28 : IVec S_ 1 := andi main_v23 main_v27
  let main_v29 : FVec F S2048 .f32 := Host.absf main_arg6
  let main_cst_10 : FVec F S_ .f32 := constant S_ .f32 0x7F800000#32
  let main_v30 : FVec F S2048 .f32 := broadcastInDim S2048 ![] bcast_S_S2048 main_cst_10
  let main_v31 : IVec S2048 1 := cmpf .olt main_v29 main_v30
  let main_c_11 : IVec S_ 1 := constantI S_ 1 1#1
  let main_v32 : IVec S_ 1 := (fun x v => Host.reduce IntOp.andi x v reducesTo_S2048_S_d0 h_S_) main_v31 main_c_11
  let main_v33 : IVec S_ 1 := andi main_v28 main_v32
  fn_part2 (F := F) main_arg7 main_arg8 main_v33

def fn {F : FTy → Type} [FloatOps F] (main_arg0 : FVec F S8192x2048 .f32) (main_arg1 : FVec F S8192x2048 .f32) (main_arg2 : FVec F S8192x2048 .f32) (main_arg3 : FVec F S2048x4096 .f32) (main_arg4 : FVec F S2048 .f32) (main_arg5 : FVec F S2048x4096 .f32) (main_arg6 : FVec F S2048 .f32) (main_arg7 : FVec F S2048x4096 .f32) (main_arg8 : FVec F S2048 .f32) : IVec S_ 1 :=
  let main_v0 : FVec F S8192x2048 .f32 := Host.absf main_arg0
  let main_cst : FVec F S_ .f32 := constant S_ .f32 0x7F800000#32
  let main_v1 : FVec F S8192x2048 .f32 := broadcastInDim S8192x2048 ![] bcast_S_S8192x2048 main_cst
  let main_v2 : IVec S8192x2048 1 := cmpf .olt main_v0 main_v1
  let main_c : IVec S_ 1 := constantI S_ 1 1#1
  let main_v3 : IVec S_ 1 := (fun x v => Host.reduce IntOp.andi x v reducesTo_S8192x2048_S_d0_1 h_S_) main_v2 main_c
  let main_v4 : FVec F S8192x2048 .f32 := Host.absf main_arg1
  let main_cst_0 : FVec F S_ .f32 := constant S_ .f32 0x7F800000#32
  let main_v5 : FVec F S8192x2048 .f32 := broadcastInDim S8192x2048 ![] bcast_S_S8192x2048 main_cst_0
  let main_v6 : IVec S8192x2048 1 := cmpf .olt main_v4 main_v5
  let main_c_1 : IVec S_ 1 := constantI S_ 1 1#1
  let main_v7 : IVec S_ 1 := (fun x v => Host.reduce IntOp.andi x v reducesTo_S8192x2048_S_d0_1 h_S_) main_v6 main_c_1
  let main_v8 : IVec S_ 1 := andi main_v3 main_v7
  let main_v9 : FVec F S8192x2048 .f32 := Host.absf main_arg2
  let main_cst_2 : FVec F S_ .f32 := constant S_ .f32 0x7F800000#32
  let main_v10 : FVec F S8192x2048 .f32 := broadcastInDim S8192x2048 ![] bcast_S_S8192x2048 main_cst_2
  let main_v11 : IVec S8192x2048 1 := cmpf .olt main_v9 main_v10
  let main_c_3 : IVec S_ 1 := constantI S_ 1 1#1
  let main_v12 : IVec S_ 1 := (fun x v => Host.reduce IntOp.andi x v reducesTo_S8192x2048_S_d0_1 h_S_) main_v11 main_c_3
  let main_v13 : IVec S_ 1 := andi main_v8 main_v12
  let main_v14 : FVec F S2048x4096 .f32 := Host.absf main_arg3
  let main_cst_4 : FVec F S_ .f32 := constant S_ .f32 0x7F800000#32
  let main_v15 : FVec F S2048x4096 .f32 := broadcastInDim S2048x4096 ![] bcast_S_S2048x4096 main_cst_4
  let main_v16 : IVec S2048x4096 1 := cmpf .olt main_v14 main_v15
  fn_part1 (F := F) main_arg4 main_arg5 main_arg6 main_arg7 main_arg8 main_v13 main_v16
-- ==== Kernel.lean ====
abbrev S8192x2048 : Shape := ⟨2, ![8192, 2048]⟩
abbrev S2048x4096 : Shape := ⟨2, ![2048, 4096]⟩
abbrev S2048 : Shape := ⟨1, ![2048]⟩
abbrev S8192x4096 : Shape := ⟨2, ![8192, 4096]⟩
abbrev S1x2048 : Shape := ⟨2, ![1, 2048]⟩
abbrev S512x4096 : Shape := ⟨2, ![512, 4096]⟩
abbrev S256x4096 : Shape := ⟨2, ![256, 4096]⟩
abbrev S1x256 : Shape := ⟨2, ![1, 256]⟩
abbrev S512x256 : Shape := ⟨2, ![512, 256]⟩

abbrev nBuf : Space → Nat
  | .hbm => 19
  | .vmem => 20
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S8192x2048, .f32⟩
  | .hbm, ⟨3, _⟩ => ⟨S2048x4096, .f32⟩
  | .hbm, ⟨4, _⟩ => ⟨S2048, .f32⟩
  | .hbm, ⟨5, _⟩ => ⟨S2048x4096, .f32⟩
  | .hbm, ⟨6, _⟩ => ⟨S2048, .f32⟩
  | .hbm, ⟨7, _⟩ => ⟨S2048x4096, .f32⟩
  | .hbm, ⟨8, _⟩ => ⟨S2048, .f32⟩
  | .hbm, ⟨9, _⟩ => ⟨S8192x4096, .f32⟩
  | .hbm, ⟨10, _⟩ => ⟨S8192x4096, .bf16⟩
  | .hbm, ⟨11, _⟩ => ⟨S2048x4096, .bf16⟩
  | .hbm, ⟨12, _⟩ => ⟨S2048x4096, .bf16⟩
  | .hbm, ⟨13, _⟩ => ⟨S2048x4096, .bf16⟩
  | .hbm, ⟨14, _⟩ => ⟨S1x2048, .f32⟩
  | .hbm, ⟨15, _⟩ => ⟨S1x2048, .f32⟩
  | .hbm, ⟨16, _⟩ => ⟨S1x2048, .f32⟩
  | .hbm, ⟨17, _⟩ => ⟨S8192x2048, .f32⟩
  | .hbm, ⟨18, _⟩ => ⟨S8192x2048, .f32⟩
  | .local _ .vmem, ⟨0, _⟩ => ⟨S512x4096, .bf16⟩
  | .local _ .vmem, ⟨1, _⟩ => ⟨S512x4096, .bf16⟩
  | .local _ .vmem, ⟨2, _⟩ => ⟨S256x4096, .bf16⟩
  | .local _ .vmem, ⟨3, _⟩ => ⟨S256x4096, .bf16⟩
  | .local _ .vmem, ⟨4, _⟩ => ⟨S256x4096, .bf16⟩
  | .local _ .vmem, ⟨5, _⟩ => ⟨S256x4096, .bf16⟩
  | .local _ .vmem, ⟨6, _⟩ => ⟨S256x4096, .bf16⟩
  | .local _ .vmem, ⟨7, _⟩ => ⟨S256x4096, .bf16⟩
  | .local _ .vmem, ⟨8, _⟩ => ⟨S1x256, .f32⟩
  | .local _ .vmem, ⟨9, _⟩ => ⟨S1x256, .f32⟩
  | .local _ .vmem, ⟨10, _⟩ => ⟨S1x256, .f32⟩
  | .local _ .vmem, ⟨11, _⟩ => ⟨S1x256, .f32⟩
  | .local _ .vmem, ⟨12, _⟩ => ⟨S1x256, .f32⟩
  | .local _ .vmem, ⟨13, _⟩ => ⟨S1x256, .f32⟩
  | .local _ .vmem, ⟨14, _⟩ => ⟨S512x256, .f32⟩
  | .local _ .vmem, ⟨15, _⟩ => ⟨S512x256, .f32⟩
  | .local _ .vmem, ⟨16, _⟩ => ⟨S512x256, .f32⟩
  | .local _ .vmem, ⟨17, _⟩ => ⟨S512x256, .f32⟩
  | .local _ .vmem, ⟨18, _⟩ => ⟨S512x256, .f32⟩
  | .local _ .vmem, ⟨19, _⟩ => ⟨S512x256, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8_0 : Ref sig .tc := ⟨.hbm, 17, rfl⟩
abbrev main_v8_1 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨2, ![16, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S256x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S256x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S256x4096 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S512x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S512x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S512x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

class Facts₀ : Prop where
  concatenates_S8192x2048_S8192x2048_S8192x4096_d1 : Shape.Concatenates [S8192x2048, S8192x2048] S8192x4096 1
  bitsLt_bf16_f32 : FTy.bits .bf16 < FTy.bits .f32
  shapeCasts_S2048_S1x2048 : S2048.ShapeCasts S1x2048
  inb_S512x4096_S512x4096_0_0 : ∀ a, (![0, 0] : Fin 2 → Nat) a + S512x4096.size a ≤ S512x4096.size a
  h_S512x4096 : 0 < S512x4096.numel
  shapeCasts_S512x4096_S512x4096 : S512x4096.ShapeCasts S512x4096
  inb_S256x4096_S256x4096_0_0 : ∀ a, (![0, 0] : Fin 2 → Nat) a + S256x4096.size a ≤ S256x4096.size a
  h_S256x4096 : 0 < S256x4096.numel
  shapeCasts_S256x4096_S256x4096 : S256x4096.ShapeCasts S256x4096
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S512x256 : S1x256.Broadcasts S512x256
  inb_S512x256_S512x256_0_0 : ∀ a, (![0, 0] : Fin 2 → Nat) a + S512x256.size a ≤ S512x256.size a
  h_S512x256 : 0 < S512x256.numel
  dot_S512x4096_S256x4096_S512x256_1_1_0_0_n_n_wf : DotDims.WF S512x4096 S256x4096 S512x256 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x4096.size a ≤ S8192x4096.size a
  hwx0_0 : ∀ i : grid0.Coords, EltTy.bits .bf16 = 32 ∨ (Rect.block (s := S8192x4096) S512x4096.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x4096.size a ≤ S2048x4096.size a
  hwx0_1 : ∀ i : grid0.Coords, EltTy.bits .bf16 = 32 ∨ (Rect.block (s := S2048x4096) S256x4096.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x4096.size a ≤ S2048x4096.size a
  hwx0_2 : ∀ i : grid0.Coords, EltTy.bits .bf16 = 32 ∨ (Rect.block (s := S2048x4096) S256x4096.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x4096.size a ≤ S2048x4096.size a
  hwx0_3 : ∀ i : grid0.Coords, EltTy.bits .bf16 = 32 ∨ (Rect.block (s := S2048x4096) S256x4096.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x2048.size a
  hwx0_4 : ∀ i : grid0.Coords, EltTy.bits .f32 = 32 ∨ (Rect.block (s := S1x2048) S1x256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x256.size a ≤ S1x2048.size a
  hwx0_5 : ∀ i : grid0.Coords, EltTy.bits .f32 = 32 ∨ (Rect.block (s := S1x2048) S1x256.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x256.size a ≤ S1x2048.size a
  hwx0_6 : ∀ i : grid0.Coords, EltTy.bits .f32 = 32 ∨ (Rect.block (s := S1x2048) S1x256.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S512x256.size a ≤ S8192x2048.size a
  hwx0_7 : ∀ i : grid0.Coords, EltTy.bits .f32 = 32 ∨ (Rect.block (s := S8192x2048) S512x256.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S512x256.size a ≤ S8192x2048.size a
  hwx0_8 : ∀ i : grid0.Coords, EltTy.bits .f32 = 32 ∨ (Rect.block (s := S8192x2048) S512x256.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S512x256.size a ≤ S8192x2048.size a
  hwx0_9 : ∀ i : grid0.Coords, EltTy.bits .f32 = 32 ∨ (Rect.block (s := S8192x2048) S512x256.size (cc0_transform_9 i) (hinb0_9 i)).WholeWords (EltTy.packing .f32)

variable [Facts₀]

def dot_S512x4096_S256x4096_S512x256_1_1_0_0_n_n : DotDims S512x4096 S256x4096 S512x256 where
  lhsContracting := [1]
  rhsContracting := [1]
  lhsNonContracting := [0]
  rhsNonContracting := [0]
  lhsBatch := []
  rhsBatch := []
  wf := dot_S512x4096_S256x4096_S512x256_1_1_0_0_n_n_wf

abbrev win0_0 : Pipeline.Window sig grid0 :=
  Pipeline.Window.ofSpec (Memref.whole main_v1) S512x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S256x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v3) S256x4096.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v4) S256x4096.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v5) S1x256.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v6) S1x256.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v7) S1x256.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_arg2) S512x256.size cc0_transform_7 reads0_7 false false 2 stage0_7 sem0_7
    hrank0 hreads0_7 hinb0_7 nbuf0_7 (Memref.isWhole_whole _) hwx0_7 hstage0_7

abbrev win0_8 : Pipeline.Window sig grid0 :=
  Pipeline.Window.ofSpec (Memref.whole main_v8_0) S512x256.size cc0_transform_8 reads0_8 true false 2 stage0_8 sem0_8
    hrank0 hreads0_8 hinb0_8 nbuf0_8 (Memref.isWhole_whole _) hwx0_8 hstage0_8

abbrev win0_9 : Pipeline.Window sig grid0 :=
  Pipeline.Window.ofSpec (Memref.whole main_v8_1) S512x256.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

class Facts : Prop extends Facts₀ where

variable [Facts]
-- ==== ReferenceIdeal.lean ====
abbrev S8192x2048 : Shape := ⟨2, ![8192, 2048]⟩
abbrev S2048x4096 : Shape := ⟨2, ![2048, 4096]⟩
abbrev S2048 : Shape := ⟨1, ![2048]⟩
abbrev S8192x4096 : Shape := ⟨2, ![8192, 4096]⟩
abbrev S6144x4096 : Shape := ⟨2, ![6144, 4096]⟩
abbrev S6144 : Shape := ⟨1, ![6144]⟩
abbrev S4096x6144 : Shape := ⟨2, ![4096, 6144]⟩
abbrev S8192x6144 : Shape := ⟨2, ![8192, 6144]⟩
abbrev S1x6144 : Shape := ⟨2, ![1, 6144]⟩
abbrev S_ : Shape := ⟨0, ![]⟩

abbrev nBuf : Space → Nat
  | .hbm => 45
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S8192x2048, .f32⟩
  | .hbm, ⟨3, _⟩ => ⟨S2048x4096, .f32⟩
  | .hbm, ⟨4, _⟩ => ⟨S2048, .f32⟩
  | .hbm, ⟨5, _⟩ => ⟨S2048x4096, .f32⟩
  | .hbm, ⟨6, _⟩ => ⟨S2048, .f32⟩
  | .hbm, ⟨7, _⟩ => ⟨S2048x4096, .f32⟩
  | .hbm, ⟨8, _⟩ => ⟨S2048, .f32⟩
  | .hbm, ⟨9, _⟩ => ⟨S8192x4096, .f32⟩
  | .hbm, ⟨10, _⟩ => ⟨S6144x4096, .f32⟩
  | .hbm, ⟨11, _⟩ => ⟨S6144, .f32⟩
  | .hbm, ⟨12, _⟩ => ⟨S4096x6144, .f32⟩
  | .hbm, ⟨13, _⟩ => ⟨S8192x6144, .f32⟩
  | .hbm, ⟨14, _⟩ => ⟨S1x6144, .f32⟩
  | .hbm, ⟨15, _⟩ => ⟨S8192x6144, .f32⟩
  | .hbm, ⟨16, _⟩ => ⟨S8192x6144, .f32⟩
  | .hbm, ⟨17, _⟩ => ⟨S8192x2048, .f32⟩
  | .hbm, ⟨18, _⟩ => ⟨S8192x2048, .f32⟩
  | .hbm, ⟨19, _⟩ => ⟨S8192x2048, .f32⟩
  | .hbm, ⟨20, _⟩ => ⟨S8192x2048, .f32⟩
  | .hbm, ⟨21, _⟩ => ⟨S8192x2048, .f32⟩
  | .hbm, ⟨22, _⟩ => ⟨S_, .f32⟩
  | .hbm, ⟨23, _⟩ => ⟨S8192x2048, .f32⟩
  | .hbm, ⟨24, _⟩ => ⟨S8192x2048, .f32⟩
  | .hbm, ⟨25, _⟩ => ⟨S_, .f32⟩
  | .hbm, ⟨26, _⟩ => ⟨S8192x2048, .f32⟩
  | .hbm, ⟨27, _⟩ => ⟨S8192x2048, .f32⟩
  | .hbm, ⟨28, _⟩ => ⟨S_, .f32⟩
  | .hbm, ⟨29, _⟩ => ⟨S8192x2048, .f32⟩
  | .hbm, ⟨30, _⟩ => ⟨S8192x2048, .f32⟩
  | .hbm, ⟨31, _⟩ => ⟨S8192x2048, .f32⟩
  | .hbm, ⟨32, _⟩ => ⟨S8192x2048, .f32⟩
  | .hbm, ⟨33, _⟩ => ⟨S_, .f32⟩
  | .hbm, ⟨34, _⟩ => ⟨S8192x2048, .f32⟩
  | .hbm, ⟨35, _⟩ => ⟨S8192x2048, .f32⟩
  | .hbm, ⟨36, _⟩ => ⟨S_, .f32⟩
  | .hbm, ⟨37, _⟩ => ⟨S8192x2048, .f32⟩
  | .hbm, ⟨38, _⟩ => ⟨S8192x2048, .f32⟩
  | .hbm, ⟨39, _⟩ => ⟨S8192x2048, .f32⟩
  | .hbm, ⟨40, _⟩ => ⟨S8192x2048, .f32⟩
  | .hbm, ⟨41, _⟩ => ⟨S8192x2048, .f32⟩
  | .hbm, ⟨42, _⟩ => ⟨S8192x2048, .f32⟩
  | .hbm, ⟨43, _⟩ => ⟨S8192x2048, .f32⟩
  | .hbm, ⟨44, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst : Ref sig .tc := ⟨.hbm, 22, rfl⟩
abbrev main_v13 : Ref sig .tc := ⟨.hbm, 23, rfl⟩
abbrev main_v14 : Ref sig .tc := ⟨.hbm, 24, rfl⟩
abbrev main_cst_0 : Ref sig .tc := ⟨.hbm, 25, rfl⟩
abbrev main_v15 : Ref sig .tc := ⟨.hbm, 26, rfl⟩
abbrev main_v16 : Ref sig .tc := ⟨.hbm, 27, rfl⟩
abbrev main_cst_1 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_2 : Ref sig .tc := ⟨.hbm, 33, rfl⟩
abbrev main_v21 : Ref sig .tc := ⟨.hbm, 34, rfl⟩
abbrev main_v22 : Ref sig .tc := ⟨.hbm, 35, rfl⟩
abbrev main_cst_3 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩

abbrev nD : Nat := 1
abbrev τ : Topo := Topo.v7x

variable {F : FTy → Type} [FloatOps F]

class Facts₀ : Prop where
  concatenates_S8192x2048_S8192x2048_S8192x4096_d1 : Shape.Concatenates [S8192x2048, S8192x2048] S8192x4096 1
  concatenates_S2048x4096_S2048x4096_S2048x4096_S6144x4096_d0 : Shape.Concatenates [S2048x4096, S2048x4096, S2048x4096] S6144x4096 0
  concatenates_S2048_S2048_S2048_S6144_d0 : Shape.Concatenates [S2048, S2048, S2048] S6144 0
  transposes_S6144x4096_S4096x6144_1_0 : S6144x4096.Transposes [1, 0] S4096x6144
  bcast_S6144_S1x6144_1 : S6144.BroadcastsInDim S1x6144 (![1] : Fin 1 → Fin S1x6144.rank)
  bcast_S1x6144_S8192x6144_0_1 : S1x6144.BroadcastsInDim S8192x6144 (![0, 1] : Fin 2 → Fin S8192x6144.rank)
  slices_S8192x6144_S8192x2048_0_0 : S8192x6144.Slices ![0, 0] S8192x2048
  slices_S8192x6144_S8192x2048_0_2048 : S8192x6144.Slices ![0, 2048] S8192x2048
  slices_S8192x6144_S8192x2048_0_4096 : S8192x6144.Slices ![0, 4096] S8192x2048
  bcast_S_S8192x2048 : S_.BroadcastsInDim S8192x2048 (![] : Fin 0 → Fin S8192x2048.rank)
  dot_S8192x4096_S4096x6144_S8192x6144_1_0_0_1_n_n_wf : DotDims.WF S8192x4096 S4096x6144 S8192x6144 [1] [0] [0] [1] [] []

variable [Facts₀]

def dot_S8192x4096_S4096x6144_S8192x6144_1_0_0_1_n_n : DotDims S8192x4096 S4096x6144 S8192x6144 where
  lhsContracting := [1]
  rhsContracting := [0]
  lhsNonContracting := [0]
  rhsNonContracting := [1]
  lhsBatch := []
  rhsBatch := []
  wf := dot_S8192x4096_S4096x6144_S8192x6144_1_0_0_1_n_n_wf

class Facts : Prop extends Facts₀ where

variable [Facts]
-- ==== Proof.Cell.lean ====
/-
  The coupled-gate LSTM cell as ONE function of the argument arrays, element by element, on the extended reals.

  With `xh` the activations [x_t | h_{t-1}] laid side by side (8192 rows of 4096), a gate with weights `W` (2048 rows of
  4096) and bias `b` has, at batch row `r` and hidden unit `j`, the pre-activation
      gate xh W b r j = (Σ_k xh[r,k] · W[j,k]) + b[j].
  The forget gate is f = σ(gate W_f b_f), the input gate its complement 1 - f, the output gate o = σ(gate W_o b_o), the
  candidate tanh(gate W_c b_c); the new cell state is c' = f · c + (1 - f) · candidate and the new hidden state
  h' = o · tanh c'. Here σ x = 1 / (1 + e^(-x)) with the conventions of the extended reals at the infinities
  (`Ideal.logistic`), and tanh is `Ideal.tanh`. Nothing below needs the inputs to be finite: both programs compute
  this same tree of operations, in the same order.
-/
import Idealize.ShloMosaic.PureOps.Ideal
import Idealize.ShloMosaic.Lib.ValueIdx

noncomputable section

open scoped BigOperators

namespace Cert.Lstm

open Idealize.ShloMosaic Idealize.ShloMosaic.ValueIdx

/-- A gate's pre-activation at batch row `r` and hidden unit `j`: row `r` of the activations against row `j` of the
    weights, plus the unit's bias. -/
def gate (xh : (⟨2, ![8192, 4096]⟩ : Shape).Idx → EReal) (W : (⟨2, ![2048, 4096]⟩ : Shape).Idx → EReal)
    (b : (⟨1, ![2048]⟩ : Shape).Idx → EReal) (r : Fin 8192) (j : Fin 2048) : EReal :=
  (∑ k : Fin 4096, xh (ix2 r k) * W (ix2 j k)) + b (ix1 j)

/-- The new cell state from the forget and candidate pre-activations and the previous cell state: the input gate is the
    forget gate's complement. -/
def cellC (f g cprev : EReal) : EReal :=
  Ideal.logistic f * cprev + (1 - Ideal.logistic f) * Ideal.tanh g

/-- The new hidden state from the output pre-activation and the new cell state. -/
def cellH (o cnew : EReal) : EReal := Ideal.logistic o * Ideal.tanh cnew

variable (xh : (⟨2, ![8192, 4096]⟩ : Shape).Idx → EReal)
  (Wf Wo Wc : (⟨2, ![2048, 4096]⟩ : Shape).Idx → EReal) (bf bo bc : (⟨1, ![2048]⟩ : Shape).Idx → EReal)
  (cprev : (⟨2, ![8192, 2048]⟩ : Shape).Idx → EReal)

/-- The new cell state at batch row `r`, hidden unit `j`. -/
def newCAt (r : Fin 8192) (j : Fin 2048) : EReal :=
  cellC (gate xh Wf bf r j) (gate xh Wc bc r j) (cprev (ix2 r j))

/-- The new hidden state at batch row `r`, hidden unit `j`. -/
def newHAt (r : Fin 8192) (j : Fin 2048) : EReal :=
  cellH (gate xh Wo bo r j) (newCAt xh Wf Wc bf bc cprev r j)

/-- The whole new cell-state array. -/
def newC : (⟨2, ![8192, 2048]⟩ : Shape).Idx → EReal := fun i => newCAt xh Wf Wc bf bc cprev (i 0) (i 1)

/-- The whole new hidden-state array. -/
def newH : (⟨2, ![8192, 2048]⟩ : Shape).Idx → EReal := fun i => newHAt xh Wf Wo Wc bf bo bc cprev (i 0) (i 1)

theorem newC_ix2 (r : Fin 8192) (j : Fin 2048) :
    newC xh Wf Wc bf bc cprev (ix2 r j) = newCAt xh Wf Wc bf bc cprev r j := rfl

theorem newH_ix2 (r : Fin 8192) (j : Fin 2048) :
    newH xh Wf Wo Wc bf bo bc cprev (ix2 r j) = newHAt xh Wf Wo Wc bf bo bc cprev r j := rfl

end Cert.Lstm

end
-- ==== Proof.Payload.lean ====
/-
  What the kernel body computes from its loaded blocks, element by element.

  The body loads a 512 × 4096 block `x` of the activations, three 256 × 4096 blocks of weight rows, three 1 × 256 blocks of
  biases and a 512 × 256 block of the previous cell state. For each gate it forms the product of `x` with the TRANSPOSE of
  the weight block, accumulated from zero, and adds the bias row to every row: at (p, q) that is
  (Σ_k x[p,k] · w[q,k]) + b[0,q]. The stored cell state is then `cellC` of the forget and candidate pre-activations and the
  loaded previous state, and the stored hidden state `cellH` of the output pre-activation and that new cell state.
-/
import proofs.«146085_j77962246357481_1_alg».proof.Proof.Gen.KernelIdeal.Skeleton
import proofs.«146085_j77962246357481_1_alg».proof.Proof.Cell
import Idealize.ShloMosaic.Lib.ValueIdx
import Idealize.ShloMosaic.Lib.ValueLayout
import Idealize.ShloMosaic.Lib.Pipeline.Value
import Idealize.ShloMosaic.Lib.IdealHost
import Idealize.ShloMosaic.PureOps.Ideal.Laws

noncomputable section

open scoped BigOperators

namespace Cert.KernelIdeal.Body

open Cert.KernelIdeal Cert.KernelIdeal.Gen Idealize.ShloMosaic Idealize.ShloMosaic.ValueIdx

/-! ## The product with a transposed block, at an index -/

/-- The left operand's row coordinate is the output's row. -/
theorem lhs_axis0 (i : S512x256.Idx) (q : dot_S512x4096_S256x4096_S512x256_1_1_0_0_n_n.contr.Idx) :
    (dot_S512x4096_S256x4096_S512x256_1_1_0_0_n_n.lhsIdx i q 0).val = (i 0).val := by
  unfold DotDims.lhsIdx
  rw [dif_neg (show ¬(0 : Fin S512x4096.rank) ∈ dot_S512x4096_S256x4096_S512x256_1_1_0_0_n_n.lhsBatch by decide), dif_pos (show (0 : Fin S512x4096.rank) ∈ dot_S512x4096_S256x4096_S512x256_1_1_0_0_n_n.lhsNonContracting by decide)]
  rfl

/-- The left operand's column coordinate is the contracted one. -/
theorem lhs_axis1 (i : S512x256.Idx) (q : dot_S512x4096_S256x4096_S512x256_1_1_0_0_n_n.contr.Idx) :
    (dot_S512x4096_S256x4096_S512x256_1_1_0_0_n_n.lhsIdx i q 1).val = (q ⟨0, by decide⟩).val :=
  dot_S512x4096_S256x4096_S512x256_1_1_0_0_n_n.lhsIdx_val_of_single rfl i q

/-- The right operand's row coordinate is the output's COLUMN: the right block enters transposed. -/
theorem rhs_axis0 (i : S512x256.Idx) (q : dot_S512x4096_S256x4096_S512x256_1_1_0_0_n_n.contr.Idx) :
    (dot_S512x4096_S256x4096_S512x256_1_1_0_0_n_n.rhsIdx i q 0).val = (i 1).val := by
  unfold DotDims.rhsIdx
  rw [dif_neg (show ¬(0 : Fin S256x4096.rank) ∈ dot_S512x4096_S256x4096_S512x256_1_1_0_0_n_n.rhsBatch by decide), dif_pos (show (0 : Fin S256x4096.rank) ∈ dot_S512x4096_S256x4096_S512x256_1_1_0_0_n_n.rhsNonContracting by decide)]
  rfl

/-- The right operand's column coordinate is the contracted one. -/
theorem rhs_axis1 (i : S512x256.Idx) (q : dot_S512x4096_S256x4096_S512x256_1_1_0_0_n_n.contr.Idx) :
    (dot_S512x4096_S256x4096_S512x256_1_1_0_0_n_n.rhsIdx i q 1).val = (q ⟨0, by decide⟩).val :=
  dot_S512x4096_S256x4096_S512x256_1_1_0_0_n_n.rhsIdx_val_of_single rfl i q

/-- A 512 × 4096 block times the transpose of a 256 × 4096 block, accumulated from zero: at (p, q) the sum over the 4096
    shared columns of l[p,k] · r[q,k]. -/
theorem matmul_at (l : FVec Ideal S512x4096 .bf16) (r : FVec Ideal S256x4096 .bf16) (p : Fin 512) (q : Fin 256) :
    matmul dot_S512x4096_S256x4096_S512x256_1_1_0_0_n_n none l r (constant S512x256 .f32 0x00000000#32) (ix2 p q)
      = ∑ k : Fin 4096, l (ix2 p k) * r (ix2 q k) := by
  refine (Ideal.matmul_constant_zero_apply dot_S512x4096_S256x4096_S512x256_1_1_0_0_n_n none l r (ix2 p q)).trans ?_
  rw [← Equiv.sum_comp (contrEquiv1 dot_S512x4096_S256x4096_S512x256_1_1_0_0_n_n 4096 rfl rfl).symm]
  refine Finset.sum_congr rfl fun k _ => ?_
  have hk := contrEquiv1_symm_val dot_S512x4096_S256x4096_S512x256_1_1_0_0_n_n 4096 rfl rfl k
  have el : dot_S512x4096_S256x4096_S512x256_1_1_0_0_n_n.lhsIdx (ix2 p q) ((contrEquiv1 dot_S512x4096_S256x4096_S512x256_1_1_0_0_n_n 4096 rfl rfl).symm k) = ix2 p k := funext fun a => Fin.ext (by
    match a with
    | ⟨0, _⟩ => exact lhs_axis0 _ _
    | ⟨1, _⟩ => exact (lhs_axis1 _ _).trans hk)
  have er : dot_S512x4096_S256x4096_S512x256_1_1_0_0_n_n.rhsIdx (ix2 p q) ((contrEquiv1 dot_S512x4096_S256x4096_S512x256_1_1_0_0_n_n 4096 rfl rfl).symm k) = ix2 q k := funext fun a => Fin.ext (by
    match a with
    | ⟨0, _⟩ => exact rhs_axis0 _ _
    | ⟨1, _⟩ => exact (rhs_axis1 _ _).trans hk)
  rw [el, er]

/-! ## A gate's pre-activation, as the body forms it -/

/-- From an activation block, a weight block and a bias block: the product with the transposed weight block from zero,
    plus the bias row on every row. -/
def pre (x : FVec Ideal S512x4096 .bf16) (w : FVec Ideal S256x4096 .bf16) (b : FVec Ideal S1x256 .f32) : FVec Ideal S512x256 .f32 :=
  addf (matmul dot_S512x4096_S256x4096_S512x256_1_1_0_0_n_n none (k0_pay1 x) (shapeCast S256x4096 w shapeCasts_S256x4096_S256x4096) (constant S512x256 .f32 0x00000000#32))
    (broadcastTo S512x256 (shapeCast S1x256 b shapeCasts_S1x256_S1x256) broadcasts_S1x256_S512x256)

/-- At (p, q): row p of the activation block against row q of the weight block, plus the bias at q. -/
theorem pre_at (x : FVec Ideal S512x4096 .bf16) (w : FVec Ideal S256x4096 .bf16) (b : FVec Ideal S1x256 .f32) (p : Fin 512) (q : Fin 256) :
    pre x w b (ix2 p q) = (∑ k : Fin 4096, x (ix2 p k) * w (ix2 q k)) + b (ix2 (0 : Fin 1) q) := by
  have e1 : k0_pay1 x = x := shapeCast_self x _
  have e2 : shapeCast S256x4096 w shapeCasts_S256x4096_S256x4096 = w := shapeCast_self w _
  have e3 : shapeCast S1x256 b shapeCasts_S1x256_S1x256 = b := shapeCast_self b _
  unfold pre
  rw [e1, e2, e3]
  show matmul dot_S512x4096_S256x4096_S512x256_1_1_0_0_n_n none x w (constant S512x256 .f32 0x00000000#32) (ix2 p q)
    + broadcastTo S512x256 b broadcasts_S1x256_S512x256 (ix2 p q) = _
  rw [matmul_at, broadcastTo_1b_ab_apply]

/-! ## The two stored values -/

/-- The stored cell state: `cellC` of the forget and candidate pre-activations and the previous state. -/
theorem pay2_at (v0 : FVec Ideal S512x4096 .bf16) (v2 : FVec Ideal S256x4096 .bf16) (v5 : FVec Ideal S1x256 .f32)
    (v16 : FVec Ideal S256x4096 .bf16) (v19 : FVec Ideal S1x256 .f32) (v28 : FVec Ideal S512x256 .f32) (i : S512x256.Idx) :
    k0_pay2 (F := Ideal) v0 v2 v5 v16 v19 v28 i = Cert.Lstm.cellC (pre v0 v2 v5 i) (pre v0 v16 v19 i) (v28 i) := by
  show Ideal.logistic (pre v0 v2 v5 i) * v28 i
      + (Ideal.ofBits .f32 0x3F800000#32 - Ideal.logistic (pre v0 v2 v5 i)) * Ideal.tanh (pre v0 v16 v19 i) = _
  rw [Ideal.ofBits_one_f32]
  rfl

/-- The stored hidden state: `cellH` of the output pre-activation and the stored cell state. -/
theorem pay3_at (v0 : FVec Ideal S512x4096 .bf16) (v2 : FVec Ideal S256x4096 .bf16) (v5 : FVec Ideal S1x256 .f32)
    (v9 : FVec Ideal S256x4096 .bf16) (v12 : FVec Ideal S1x256 .f32)
    (v16 : FVec Ideal S256x4096 .bf16) (v19 : FVec Ideal S1x256 .f32) (v28 : FVec Ideal S512x256 .f32) (i : S512x256.Idx) :
    k0_pay3 (F := Ideal) v0 v2 v5 v9 v12 v16 v19 v28 i
      = Cert.Lstm.cellH (pre v0 v9 v12 i) (k0_pay2 (F := Ideal) v0 v2 v5 v16 v19 v28 i) := rfl

end Cert.KernelIdeal.Body

end
-- ==== Proof.Point.lean ====
/-
  One grid point: from blocks to arrays.

  At a grid point the body sees a block of each array. If the activation block holds rows R₀ + p of the activations, each
  weight block rows J₀ + q of its weight matrix, each bias block entries J₀ + q of its bias (as a one-row matrix) and the
  cell-state block the entries (R₀ + p, J₀ + q) of the previous cell state, then what the body stores at (p, q) is the new
  cell state, and the new hidden state, of the whole arrays at row R₀ + p and hidden unit J₀ + q. The lemmas take the row
  and unit as given numbers `R`, `J` with their equations, so that a caller supplies the block arithmetic.
-/
import proofs.«146085_j77962246357481_1_alg».proof.Proof.Payload

noncomputable section

open scoped BigOperators

namespace Cert.KernelIdeal.Point

open Cert.KernelIdeal Cert.KernelIdeal.Gen Idealize.ShloMosaic Idealize.ShloMosaic.ValueIdx

/-- A bias kept as a one-row matrix, read as a vector. -/
abbrev rowVec (B : FVec Ideal S1x2048 .f32) : (⟨1, ![2048]⟩ : Shape).Idx → EReal := fun i => B (ix2 (0 : Fin 1) (i 0))

variable (XH : FVec Ideal S8192x4096 .bf16) (CP : FVec Ideal S8192x2048 .f32)
variable (x : FVec Ideal S512x4096 .bf16) (cp : FVec Ideal S512x256 .f32)
variable (R₀ J₀ : ℕ)

/-- How the activation block reads the activations. -/
def ReadsRows : Prop :=
  ∀ (p : Fin 512) (k : Fin 4096) (R : Fin 8192), R.val = R₀ + p.val → x (ix2 p k) = XH (ix2 R k)

/-- How a weight block reads its weight matrix. -/
def ReadsWeights (W : FVec Ideal S2048x4096 .bf16) (w : FVec Ideal S256x4096 .bf16) : Prop :=
  ∀ (q : Fin 256) (k : Fin 4096) (J : Fin 2048), J.val = J₀ + q.val → w (ix2 q k) = W (ix2 J k)

/-- How a bias block reads its one-row bias. -/
def ReadsBias (B : FVec Ideal S1x2048 .f32) (b : FVec Ideal S1x256 .f32) : Prop :=
  ∀ (q : Fin 256) (J : Fin 2048), J.val = J₀ + q.val → b (ix2 (0 : Fin 1) q) = B (ix2 (0 : Fin 1) J)

/-- How the cell-state block reads the previous cell state. -/
def ReadsCells : Prop :=
  ∀ (p : Fin 512) (q : Fin 256) (R : Fin 8192) (J : Fin 2048), R.val = R₀ + p.val → J.val = J₀ + q.val →
    cp (ix2 p q) = CP (ix2 R J)

/-- A gate's pre-activation from the blocks is the gate's pre-activation of the arrays. -/
theorem pre_of_blocks (W : FVec Ideal S2048x4096 .bf16) (B : FVec Ideal S1x2048 .f32)
    (w : FVec Ideal S256x4096 .bf16) (b : FVec Ideal S1x256 .f32)
    (hx : ReadsRows XH x R₀) (hw : ReadsWeights J₀ W w) (hb : ReadsBias J₀ B b)
    (p : Fin 512) (q : Fin 256) (R : Fin 8192) (J : Fin 2048) (hR : R.val = R₀ + p.val) (hJ : J.val = J₀ + q.val) :
    Body.pre x w b (ix2 p q) = Cert.Lstm.gate XH W (rowVec B) R J := by
  rw [Body.pre_at, hb q J hJ]
  unfold Cert.Lstm.gate
  refine congrArg (· + B (ix2 (0 : Fin 1) J)) (Finset.sum_congr rfl fun k _ => ?_)
  rw [hx p k R hR, hw q k J hJ]

variable (WF WO WC : FVec Ideal S2048x4096 .bf16) (BF BO BC : FVec Ideal S1x2048 .f32)
variable (wf wo wc : FVec Ideal S256x4096 .bf16) (bf bo bc : FVec Ideal S1x256 .f32)

/-- The stored cell state at (p, q) is the new cell state of the arrays at (R, J). -/
theorem stored_cell (hx : ReadsRows XH x R₀) (hwf : ReadsWeights J₀ WF wf) (hwc : ReadsWeights J₀ WC wc)
    (hbf : ReadsBias J₀ BF bf) (hbc : ReadsBias J₀ BC bc) (hcp : ReadsCells CP cp R₀ J₀)
    (p : Fin 512) (q : Fin 256) (R : Fin 8192) (J : Fin 2048) (hR : R.val = R₀ + p.val) (hJ : J.val = J₀ + q.val) :
    k0_pay2 (F := Ideal) x wf bf wc bc cp (ix2 p q)
      = Cert.Lstm.newCAt XH WF WC (rowVec BF) (rowVec BC) CP R J := by
  rw [Body.pay2_at, pre_of_blocks XH x R₀ J₀ WF BF wf bf hx hwf hbf p q R J hR hJ,
    pre_of_blocks XH x R₀ J₀ WC BC wc bc hx hwc hbc p q R J hR hJ, hcp p q R J hR hJ]
  rfl

/-- The stored hidden state at (p, q) is the new hidden state of the arrays at (R, J). -/
theorem stored_hidden (hx : ReadsRows XH x R₀) (hwf : ReadsWeights J₀ WF wf) (hwo : ReadsWeights J₀ WO wo)
    (hwc : ReadsWeights J₀ WC wc) (hbf : ReadsBias J₀ BF bf) (hbo : ReadsBias J₀ BO bo) (hbc : ReadsBias J₀ BC bc)
    (hcp : ReadsCells CP cp R₀ J₀)
    (p : Fin 512) (q : Fin 256) (R : Fin 8192) (J : Fin 2048) (hR : R.val = R₀ + p.val) (hJ : J.val = J₀ + q.val) :
    k0_pay3 (F := Ideal) x wf bf wo bo wc bc cp (ix2 p q)
      = Cert.Lstm.newHAt XH WF WO WC (rowVec BF) (rowVec BO) (rowVec BC) CP R J := by
  rw [Body.pay3_at, pre_of_blocks XH x R₀ J₀ WO BO wo bo hx hwo hbo p q R J hR hJ,
    stored_cell XH CP x cp R₀ J₀ WF WC BF BC wf wc bf bc hx hwf hwc hbf hbc hcp p q R J hR hJ]
  rfl

end Cert.KernelIdeal.Point

end
-- ==== Proof.Whole.lean ====
/-
  The kernel's two result arrays after the run, as whole-array functions of the arguments.

  The grid has 16 × 8 points; point (i, j) works on batch rows 512·i … 512·i + 511 and hidden units 256·j … 256·j + 255. Its
  activation block is rows 512·i … of [x_t | h_{t-1}] (all 4096 columns), its weight blocks rows 256·j … of each weight
  matrix, its bias blocks entries 256·j … of each bias, and its cell-state block the (i, j) tile of the previous cell state;
  it writes the (i, j) tiles of the two results. By the per-point lemmas each written tile is the matching tile of the LSTM
  cell's functions of the arrays, and the 128 tiles cover the 8192 × 2048 results, so each result array IS that function.
  The arrays the region finds were made by the host from the arguments: the side-by-side join of x_t and h_{t-1}, the weight
  matrices themselves (a change of float format is the identity on the extended reals), and each bias as a one-row matrix.
-/
import proofs.«146085_j77962246357481_1_alg».proof.Proof.Gen.KernelIdeal.Value
import proofs.«146085_j77962246357481_1_alg».proof.Proof.Point
import Idealize.ShloMosaic.Lib.StableHlo.Run
import Idealize.ShloMosaic.Lib.ValueLayout

noncomputable section

namespace Cert.KernelIdeal.Whole

open Cert.KernelIdeal Cert.KernelIdeal.Gen Cert.KernelIdeal.Value Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

theorem origin : (![0, 0] : Fin 2 → Nat) = fun _ => 0 := funext fun a => by fin_cases a <;> rfl

/-! ## Which block each window is on at a grid point -/

/-- Relative to the result tile (i, j): the activation block is (i, 0), the weight blocks (j, 0), the bias blocks (0, j),
    the cell-state block and both result tiles (i, j); and i < 16, j < 8. Decided over the 128 points. -/
theorem tiles : ∀ t : Fin cfg0.N,
    win0_0.index t (0 : Fin 2) = win0_9.index t (0 : Fin 2) ∧ win0_0.index t (1 : Fin 2) = 0
    ∧ win0_1.index t (0 : Fin 2) = win0_9.index t (1 : Fin 2) ∧ win0_1.index t (1 : Fin 2) = 0
    ∧ win0_2.index t (0 : Fin 2) = win0_9.index t (1 : Fin 2) ∧ win0_2.index t (1 : Fin 2) = 0
    ∧ win0_3.index t (0 : Fin 2) = win0_9.index t (1 : Fin 2) ∧ win0_3.index t (1 : Fin 2) = 0
    ∧ win0_4.index t (0 : Fin 2) = 0 ∧ win0_4.index t (1 : Fin 2) = win0_9.index t (1 : Fin 2)
    ∧ win0_5.index t (0 : Fin 2) = 0 ∧ win0_5.index t (1 : Fin 2) = win0_9.index t (1 : Fin 2)
    ∧ win0_6.index t (0 : Fin 2) = 0 ∧ win0_6.index t (1 : Fin 2) = win0_9.index t (1 : Fin 2)
    ∧ win0_7.index t (0 : Fin 2) = win0_9.index t (0 : Fin 2) ∧ win0_7.index t (1 : Fin 2) = win0_9.index t (1 : Fin 2)
    ∧ win0_8.index t (0 : Fin 2) = win0_9.index t (0 : Fin 2) ∧ win0_8.index t (1 : Fin 2) = win0_9.index t (1 : Fin 2)
    ∧ win0_9.index t (0 : Fin 2) ≤ 15 ∧ win0_9.index t (1 : Fin 2) ≤ 7 :=
  (by decide +kernel : ∀ t : Fin grid0.N, _)

/-- Every tile of the 16 × 8 tiling is some point's. -/
theorem tiles_onto : ∀ (q0 : Fin 16) (q1 : Fin 8), ∃ t : Fin cfg0.N, win0_9.index t = ![q0.val, q1.val] :=
  (by decide +kernel : ∀ (q0 : Fin 16) (q1 : Fin 8), ∃ t : Fin grid0.N, win0_9.index t = ![q0.val, q1.val])

/-! ## How each loaded block reads its array -/

theorem rows_read (c : Dev nD) (t : Fin cfg0.N) :
    Point.ReadsRows (V m c main_v1) (iblk m c 0 t) (win0_9.index t (0 : Fin 2) * 512) := by
  intro p k R hR
  obtain ⟨e0, e1, -⟩ := tiles t
  show V m c main_v1 (((cfg0.win 0).blk t).view.emb (ix2 p k)) = V m c main_v1 (ix2 R k)
  refine congrArg (V m c main_v1) (funext fun a => Fin.ext ?_)
  match a with
  | ⟨0, _⟩ => show win0_0.index t (0 : Fin 2) * 512 + 1 * p.val = R.val; omega
  | ⟨1, _⟩ => show win0_0.index t (1 : Fin 2) * 4096 + 1 * k.val = k.val; omega

theorem weights_f_read (c : Dev nD) (t : Fin cfg0.N) :
    Point.ReadsWeights (win0_9.index t (1 : Fin 2) * 256) (V m c main_v2) (iblk m c 1 t) := by
  intro q k J hJ
  obtain ⟨-, -, e0, e1, -⟩ := tiles t
  show V m c main_v2 (((cfg0.win 1).blk t).view.emb (ix2 q k)) = V m c main_v2 (ix2 J k)
  refine congrArg (V m c main_v2) (funext fun a => Fin.ext ?_)
  match a with
  | ⟨0, _⟩ => show win0_1.index t (0 : Fin 2) * 256 + 1 * q.val = J.val; omega
  | ⟨1, _⟩ => show win0_1.index t (1 : Fin 2) * 4096 + 1 * k.val = k.val; omega

theorem weights_o_read (c : Dev nD) (t : Fin cfg0.N) :
    Point.ReadsWeights (win0_9.index t (1 : Fin 2) * 256) (V m c main_v3) (iblk m c 2 t) := by
  intro q k J hJ
  obtain ⟨-, -, -, -, e0, e1, -⟩ := tiles t
  show V m c main_v3 (((cfg0.win 2).blk t).view.emb (ix2 q k)) = V m c main_v3 (ix2 J k)
  refine congrArg (V m c main_v3) (funext fun a => Fin.ext ?_)
  match a with
  | ⟨0, _⟩ => show win0_2.index t (0 : Fin 2) * 256 + 1 * q.val = J.val; omega
  | ⟨1, _⟩ => show win0_2.index t (1 : Fin 2) * 4096 + 1 * k.val = k.val; omega

theorem weights_c_read (c : Dev nD) (t : Fin cfg0.N) :
    Point.ReadsWeights (win0_9.index t (1 : Fin 2) * 256) (V m c main_v4) (iblk m c 3 t) := by
  intro q k J hJ
  obtain ⟨-, -, -, -, -, -, e0, e1, -⟩ := tiles t
  show V m c main_v4 (((cfg0.win 3).blk t).view.emb (ix2 q k)) = V m c main_v4 (ix2 J k)
  refine congrArg (V m c main_v4) (funext fun a => Fin.ext ?_)
  match a with
  | ⟨0, _⟩ => show win0_3.index t (0 : Fin 2) * 256 + 1 * q.val = J.val; omega
  | ⟨1, _⟩ => show win0_3.index t (1 : Fin 2) * 4096 + 1 * k.val = k.val; omega

theorem bias_f_read (c : Dev nD) (t : Fin cfg0.N) :
    Point.ReadsBias (win0_9.index t (1 : Fin 2) * 256) (V m c main_v5) (iblk m c 4 t) := by
  intro q J hJ
  obtain ⟨-, -, -, -, -, -, -, -, e0, e1, -⟩ := tiles t
  show V m c main_v5 (((cfg0.win 4).blk t).view.emb (ix2 (0 : Fin 1) q)) = V m c main_v5 (ix2 (0 : Fin 1) J)
  refine congrArg (V m c main_v5) (funext fun a => Fin.ext ?_)
  match a with
  | ⟨0, _⟩ => show win0_4.index t (0 : Fin 2) * 1 + 1 * 0 = 0; omega
  | ⟨1, _⟩ => show win0_4.index t (1 : Fin 2) * 256 + 1 * q.val = J.val; omega

theorem bias_o_read (c : Dev nD) (t : Fin cfg0.N) :
    Point.ReadsBias (win0_9.index t (1 : Fin 2) * 256) (V m c main_v6) (iblk m c 5 t) := by
  intro q J hJ
  obtain ⟨-, -, -, -, -, -, -, -, -, -, e0, e1, -⟩ := tiles t
  show V m c main_v6 (((cfg0.win 5).blk t).view.emb (ix2 (0 : Fin 1) q)) = V m c main_v6 (ix2 (0 : Fin 1) J)
  refine congrArg (V m c main_v6) (funext fun a => Fin.ext ?_)
  match a with
  | ⟨0, _⟩ => show win0_5.index t (0 : Fin 2) * 1 + 1 * 0 = 0; omega
  | ⟨1, _⟩ => show win0_5.index t (1 : Fin 2) * 256 + 1 * q.val = J.val; omega

theorem bias_c_read (c : Dev nD) (t : Fin cfg0.N) :
    Point.ReadsBias (win0_9.index t (1 : Fin 2) * 256) (V m c main_v7) (iblk m c 6 t) := by
  intro q J hJ
  obtain ⟨-, -, -, -, -, -, -, -, -, -, -, -, e0, e1, -⟩ := tiles t
  show V m c main_v7 (((cfg0.win 6).blk t).view.emb (ix2 (0 : Fin 1) q)) = V m c main_v7 (ix2 (0 : Fin 1) J)
  refine congrArg (V m c main_v7) (funext fun a => Fin.ext ?_)
  match a with
  | ⟨0, _⟩ => show win0_6.index t (0 : Fin 2) * 1 + 1 * 0 = 0; omega
  | ⟨1, _⟩ => show win0_6.index t (1 : Fin 2) * 256 + 1 * q.val = J.val; omega

theorem cells_read (c : Dev nD) (t : Fin cfg0.N) :
    Point.ReadsCells (V m c main_arg2) (iblk m c 7 t) (win0_9.index t (0 : Fin 2) * 512) (win0_9.index t (1 : Fin 2) * 256) := by
  intro p q R J hR hJ
  obtain ⟨-, -, -, -, -, -, -, -, -, -, -, -, -, -, e0, e1, -⟩ := tiles t
  show V m c main_arg2 (((cfg0.win 7).blk t).view.emb (ix2 p q)) = V m c main_arg2 (ix2 R J)
  refine congrArg (V m c main_arg2) (funext fun a => Fin.ext ?_)
  match a with
  | ⟨0, _⟩ => show win0_7.index t (0 : Fin 2) * 512 + 1 * p.val = R.val; omega
  | ⟨1, _⟩ => show win0_7.index t (1 : Fin 2) * 256 + 1 * q.val = J.val; omega

/-! ## The two functions of the arrays as the region finds them -/

/-- The new cell state of the arrays the region finds. -/
def cellArr (c : Dev nD) : FVec Ideal S8192x2048 .f32 :=
  Cert.Lstm.newC (V m c main_v1) (V m c main_v2) (V m c main_v4) (Point.rowVec (V m c main_v5)) (Point.rowVec (V m c main_v7)) (V m c main_arg2)

/-- The new hidden state of the arrays the region finds. -/
def hiddenArr (c : Dev nD) : FVec Ideal S8192x2048 .f32 :=
  Cert.Lstm.newH (V m c main_v1) (V m c main_v2) (V m c main_v3) (V m c main_v4) (Point.rowVec (V m c main_v5)) (Point.rowVec (V m c main_v6))
    (Point.rowVec (V m c main_v7)) (V m c main_arg2)

/-- Where an element of a result tile sits in the result array. -/
theorem tile_emb9 (t : Fin cfg0.N) (y : ((cfg0.win 9).xblock (grid0.coords t)).Idx) (R : Fin 8192) (J : Fin 2048)
    (hR : R.val = win0_9.index t (0 : Fin 2) * 512 + (y 0).val) (hJ : J.val = win0_9.index t (1 : Fin 2) * 256 + (y 1).val) :
    ((cfg0.win 9).blk t).view.emb y = ix2 R J := by
  funext a; apply Fin.ext
  match a with
  | ⟨0, _⟩ => show win0_9.index t (0 : Fin 2) * 512 + 1 * (y 0).val = R.val; omega
  | ⟨1, _⟩ => show win0_9.index t (1 : Fin 2) * 256 + 1 * (y 1).val = J.val; omega

theorem tile_emb8 (t : Fin cfg0.N) (y : ((cfg0.win 8).xblock (grid0.coords t)).Idx) (R : Fin 8192) (J : Fin 2048)
    (hR : R.val = win0_8.index t (0 : Fin 2) * 512 + (y 0).val) (hJ : J.val = win0_8.index t (1 : Fin 2) * 256 + (y 1).val) :
    ((cfg0.win 8).blk t).view.emb y = ix2 R J := by
  funext a; apply Fin.ext
  match a with
  | ⟨0, _⟩ => show win0_8.index t (0 : Fin 2) * 512 + 1 * (y 0).val = R.val; omega
  | ⟨1, _⟩ => show win0_8.index t (1 : Fin 2) * 256 + 1 * (y 1).val = J.val; omega

/-! ## What each point writes back -/

/-- Point `t` writes tile `t` of the new cell state. -/
theorem flushed9_eq (c : Dev nD) (t : Fin cfg0.N) :
    (dats m 0 c).flushed 9 t = ((cfg0.win 9).blk t).view.read (Elt Ideal) (cellArr m c) := by
  rw [Value.flushed9]
  unfold out0_9
  rw [View.canon_unit_zero origin]
  simp only [View.ld_unit_zero (S := S512x4096) origin, View.ld_unit_zero (S := S256x4096) origin,
    View.ld_unit_zero (S := S1x256) origin, View.ld_unit_zero (S := S512x256) origin]
  funext y
  have hy0 : (y 0).val < 512 := (y 0).isLt
  have hy1 : (y 1).val < 256 := (y 1).isLt
  have hb0 : win0_9.index t (0 : Fin 2) ≤ 15 := (tiles t).2.2.2.2.2.2.2.2.2.2.2.2.2.2.2.2.2.2.1
  have hb1 : win0_9.index t (1 : Fin 2) ≤ 7 := (tiles t).2.2.2.2.2.2.2.2.2.2.2.2.2.2.2.2.2.2.2
  have hy : y = ix2 (⟨(y 0).val, hy0⟩ : Fin 512) (⟨(y 1).val, hy1⟩ : Fin 256) :=
    funext fun a => by match a with | ⟨0, _⟩ => rfl | ⟨1, _⟩ => rfl
  have hemb := tile_emb9 t y ⟨win0_9.index t (0 : Fin 2) * 512 + (y 0).val, by omega⟩ ⟨win0_9.index t (1 : Fin 2) * 256 + (y 1).val, by omega⟩ rfl rfl
  show k0_pay2 (F := Ideal) (iblk m c 0 t) (iblk m c 1 t) (iblk m c 4 t) (iblk m c 3 t) (iblk m c 6 t) (iblk m c 7 t) y
    = cellArr m c (((cfg0.win 9).blk t).view.emb y)
  rw [hemb]
  refine (congrArg (fun z => k0_pay2 (F := Ideal) (iblk m c 0 t) (iblk m c 1 t) (iblk m c 4 t) (iblk m c 3 t) (iblk m c 6 t) (iblk m c 7 t) z) hy).trans ?_
  exact Point.stored_cell (V m c main_v1) (V m c main_arg2) (iblk m c 0 t) (iblk m c 7 t) (win0_9.index t (0 : Fin 2) * 512) (win0_9.index t (1 : Fin 2) * 256)
    (V m c main_v2) (V m c main_v4) (V m c main_v5) (V m c main_v7) (iblk m c 1 t) (iblk m c 3 t) (iblk m c 4 t) (iblk m c 6 t)
    (rows_read m c t) (weights_f_read m c t) (weights_c_read m c t) (bias_f_read m c t) (bias_c_read m c t) (cells_read m c t)
    _ _ _ _ rfl rfl

/-- Point `t` writes tile `t` of the new hidden state. -/
theorem flushed8_eq (c : Dev nD) (t : Fin cfg0.N) :
    (dats m 0 c).flushed 8 t = ((cfg0.win 8).blk t).view.read (Elt Ideal) (hiddenArr m c) := by
  rw [Value.flushed8]
  unfold out0_8
  rw [View.canon_unit_zero origin]
  simp only [View.ld_unit_zero (S := S512x4096) origin, View.ld_unit_zero (S := S256x4096) origin,
    View.ld_unit_zero (S := S1x256) origin, View.ld_unit_zero (S := S512x256) origin]
  funext y
  have hy0 : (y 0).val < 512 := (y 0).isLt
  have hy1 : (y 1).val < 256 := (y 1).isLt
  have hb0 : win0_9.index t (0 : Fin 2) ≤ 15 := (tiles t).2.2.2.2.2.2.2.2.2.2.2.2.2.2.2.2.2.2.1
  have hb1 : win0_9.index t (1 : Fin 2) ≤ 7 := (tiles t).2.2.2.2.2.2.2.2.2.2.2.2.2.2.2.2.2.2.2
  have h80 : win0_8.index t (0 : Fin 2) = win0_9.index t (0 : Fin 2) := (tiles t).2.2.2.2.2.2.2.2.2.2.2.2.2.2.2.2.1
  have h81 : win0_8.index t (1 : Fin 2) = win0_9.index t (1 : Fin 2) := (tiles t).2.2.2.2.2.2.2.2.2.2.2.2.2.2.2.2.2.1
  have hy : y = ix2 (⟨(y 0).val, hy0⟩ : Fin 512) (⟨(y 1).val, hy1⟩ : Fin 256) :=
    funext fun a => by match a with | ⟨0, _⟩ => rfl | ⟨1, _⟩ => rfl
  have hemb := tile_emb8 t y ⟨win0_9.index t (0 : Fin 2) * 512 + (y 0).val, by omega⟩ ⟨win0_9.index t (1 : Fin 2) * 256 + (y 1).val, by omega⟩
    (by show win0_9.index t (0 : Fin 2) * 512 + (y 0).val = win0_8.index t (0 : Fin 2) * 512 + (y 0).val; rw [h80])
    (by show win0_9.index t (1 : Fin 2) * 256 + (y 1).val = win0_8.index t (1 : Fin 2) * 256 + (y 1).val; rw [h81])
  show k0_pay3 (F := Ideal) (iblk m c 0 t) (iblk m c 1 t) (iblk m c 4 t) (iblk m c 2 t) (iblk m c 5 t) (iblk m c 3 t) (iblk m c 6 t) (iblk m c 7 t) y
    = hiddenArr m c (((cfg0.win 8).blk t).view.emb y)
  rw [hemb]
  refine (congrArg (fun z => k0_pay3 (F := Ideal) (iblk m c 0 t) (iblk m c 1 t) (iblk m c 4 t) (iblk m c 2 t) (iblk m c 5 t) (iblk m c 3 t) (iblk m c 6 t) (iblk m c 7 t) z) hy).trans ?_
  exact Point.stored_hidden (V m c main_v1) (V m c main_arg2) (iblk m c 0 t) (iblk m c 7 t) (win0_9.index t (0 : Fin 2) * 512) (win0_9.index t (1 : Fin 2) * 256)
    (V m c main_v2) (V m c main_v3) (V m c main_v4) (V m c main_v5) (V m c main_v6) (V m c main_v7)
    (iblk m c 1 t) (iblk m c 2 t) (iblk m c 3 t) (iblk m c 4 t) (iblk m c 5 t) (iblk m c 6 t)
    (rows_read m c t) (weights_f_read m c t) (weights_o_read m c t) (weights_c_read m c t) (bias_f_read m c t) (bias_o_read m c t)
    (bias_c_read m c t) (cells_read m c t) _ _ _ _ rfl rfl

/-! ## The tiles cover the results -/

theorem mem_tile9 (t : Fin cfg0.N) (i : S8192x2048.Idx) :
    i ∈ ((cfg0.win 9).blk t).view.set ↔ ∀ a : Fin 2, win0_9.index t a * S512x256.size a ≤ (i a).val ∧ (i a).val < win0_9.index t a * S512x256.size a + S512x256.size a := by
  show i ∈ ((View.whole main_v8_1).slice (win0_9.rect t)).set ↔ _
  rw [View.set_slice_whole, Rect.mem_set_unit]
  exact Iff.rfl

theorem mem_tile8 (t : Fin cfg0.N) (i : S8192x2048.Idx) :
    i ∈ ((cfg0.win 8).blk t).view.set ↔ ∀ a : Fin 2, win0_8.index t a * S512x256.size a ≤ (i a).val ∧ (i a).val < win0_8.index t a * S512x256.size a + S512x256.size a := by
  show i ∈ ((View.whole main_v8_0).slice (win0_8.rect t)).set ↔ _
  rw [View.set_slice_whole, Rect.mem_set_unit]
  exact Iff.rfl

/-- Entry (r, u) lies in the tile (r / 512, u / 256). -/
theorem covered9 (i : S8192x2048.Idx) : ∃ t : Fin cfg0.N, (cfg0.win 9).flush t = true ∧ i ∈ ((cfg0.win 9).blk t).view.set := by
  have hi0 : (i 0).val < 8192 := (i 0).isLt
  have hi1 : (i 1).val < 2048 := (i 1).isLt
  obtain ⟨t, ht⟩ := tiles_onto ⟨(i 0).val / 512, by omega⟩ ⟨(i 1).val / 256, by omega⟩
  have q0 : win0_9.index t (0 : Fin 2) = (i 0).val / 512 := congrFun ht 0
  have q1 : win0_9.index t (1 : Fin 2) = (i 1).val / 256 := congrFun ht 1
  refine ⟨t, flush0_9 t, ?_⟩
  rw [mem_tile9]
  intro a
  match a with
  | ⟨0, _⟩ => show win0_9.index t (0 : Fin 2) * 512 ≤ (i 0).val ∧ (i 0).val < win0_9.index t (0 : Fin 2) * 512 + 512; omega
  | ⟨1, _⟩ => show win0_9.index t (1 : Fin 2) * 256 ≤ (i 1).val ∧ (i 1).val < win0_9.index t (1 : Fin 2) * 256 + 256; omega

theorem covered8 (i : S8192x2048.Idx) : ∃ t : Fin cfg0.N, (cfg0.win 8).flush t = true ∧ i ∈ ((cfg0.win 8).blk t).view.set := by
  have hi0 : (i 0).val < 8192 := (i 0).isLt
  have hi1 : (i 1).val < 2048 := (i 1).isLt
  obtain ⟨t, ht⟩ := tiles_onto ⟨(i 0).val / 512, by omega⟩ ⟨(i 1).val / 256, by omega⟩
  have q0 : win0_9.index t (0 : Fin 2) = (i 0).val / 512 := congrFun ht 0
  have q1 : win0_9.index t (1 : Fin 2) = (i 1).val / 256 := congrFun ht 1
  have h80 : win0_8.index t (0 : Fin 2) = win0_9.index t (0 : Fin 2) := (tiles t).2.2.2.2.2.2.2.2.2.2.2.2.2.2.2.2.1
  have h81 : win0_8.index t (1 : Fin 2) = win0_9.index t (1 : Fin 2) := (tiles t).2.2.2.2.2.2.2.2.2.2.2.2.2.2.2.2.2.1
  refine ⟨t, flush0_8 t, ?_⟩
  rw [mem_tile8]
  intro a
  match a with
  | ⟨0, _⟩ => show win0_8.index t (0 : Fin 2) * 512 ≤ (i 0).val ∧ (i 0).val < win0_8.index t (0 : Fin 2) * 512 + 512; omega
  | ⟨1, _⟩ => show win0_8.index t (1 : Fin 2) * 256 ≤ (i 1).val ∧ (i 1).val < win0_8.index t (1 : Fin 2) * 256 + 256; omega

/-- The second result array after the run is the new cell state of the arrays the region finds. -/
theorem final9 (c : Dev nD) : (dats m 0 c).arrAt 9 cfg0.N = cellArr m c :=
  (dats m 0 c).arrAt_eq_of_cover 9 (cellArr m c) (fun t _ => flushed9_eq m c t) covered9

/-- The first result array after the run is the new hidden state of the arrays the region finds. -/
theorem final8 (c : Dev nD) : (dats m 0 c).arrAt 8 cfg0.N = hiddenArr m c :=
  (dats m 0 c).arrAt_eq_of_cover 8 (hiddenArr m c) (fun t _ => flushed8_eq m c t) covered8

/-! ## The arrays the region finds, from the arguments -/

theorem activations_eq (c : Dev nD) :
    (V m c main_v1 : FVec Ideal S8192x4096 .bf16) = (concatenate S8192x4096 1 [⟨S8192x2048, m ((c : Thread nD τ).loc main_arg0)⟩, ⟨S8192x2048, m ((c : Thread nD τ).loc main_arg1)⟩] concatenates_S8192x2048_S8192x2048_S8192x4096_d1) := by
  dsimp only [Gen.V, Gen.hostOps0]; after_results; rfl

theorem weights_f_eq (c : Dev nD) : (V m c main_v2 : FVec Ideal S2048x4096 .bf16) = m ((c : Thread nD τ).loc main_arg3) := by
  dsimp only [Gen.V, Gen.hostOps0]; after_results; rfl

theorem weights_o_eq (c : Dev nD) : (V m c main_v3 : FVec Ideal S2048x4096 .bf16) = m ((c : Thread nD τ).loc main_arg5) := by
  dsimp only [Gen.V, Gen.hostOps0]; after_results; rfl

theorem weights_c_eq (c : Dev nD) : (V m c main_v4 : FVec Ideal S2048x4096 .bf16) = m ((c : Thread nD τ).loc main_arg7) := by
  dsimp only [Gen.V, Gen.hostOps0]; after_results; rfl

theorem bias_f_eq (c : Dev nD) : Point.rowVec (V m c main_v5) = m ((c : Thread nD τ).loc main_arg4) := by
  have e : (V m c main_v5 : FVec Ideal S1x2048 .f32) = shapeCast S1x2048 (m ((c : Thread nD τ).loc main_arg4)) shapeCasts_S2048_S1x2048 := by
    dsimp only [Gen.V, Gen.hostOps0]; after_results; rfl
  funext i
  obtain ⟨J, rfl⟩ : ∃ J : Fin 2048, i = ix1 J := ⟨i 0, eq_ix1 i⟩
  show V m c main_v5 (ix2 (0 : Fin 1) J) = _
  rw [e]
  exact shapeCast_a_1a_apply _ _ (0 : Fin 1) J

theorem bias_o_eq (c : Dev nD) : Point.rowVec (V m c main_v6) = m ((c : Thread nD τ).loc main_arg6) := by
  have e : (V m c main_v6 : FVec Ideal S1x2048 .f32) = shapeCast S1x2048 (m ((c : Thread nD τ).loc main_arg6)) shapeCasts_S2048_S1x2048 := by
    dsimp only [Gen.V, Gen.hostOps0]; after_results; rfl
  funext i
  obtain ⟨J, rfl⟩ : ∃ J : Fin 2048, i = ix1 J := ⟨i 0, eq_ix1 i⟩
  show V m c main_v6 (ix2 (0 : Fin 1) J) = _
  rw [e]
  exact shapeCast_a_1a_apply _ _ (0 : Fin 1) J

theorem bias_c_eq (c : Dev nD) : Point.rowVec (V m c main_v7) = m ((c : Thread nD τ).loc main_arg8) := by
  have e : (V m c main_v7 : FVec Ideal S1x2048 .f32) = shapeCast S1x2048 (m ((c : Thread nD τ).loc main_arg8)) shapeCasts_S2048_S1x2048 := by
    dsimp only [Gen.V, Gen.hostOps0]; after_results; rfl
  funext i
  obtain ⟨J, rfl⟩ : ∃ J : Fin 2048, i = ix1 J := ⟨i 0, eq_ix1 i⟩
  show V m c main_v7 (ix2 (0 : Fin 1) J) = _
  rw [e]
  exact shapeCast_a_1a_apply _ _ (0 : Fin 1) J

/-- The new cell state, from the arguments. -/
theorem cellArr_eq (c : Dev nD) :
    cellArr m c = Cert.Lstm.newC (concatenate S8192x4096 1 [⟨S8192x2048, m ((c : Thread nD τ).loc main_arg0)⟩, ⟨S8192x2048, m ((c : Thread nD τ).loc main_arg1)⟩] concatenates_S8192x2048_S8192x2048_S8192x4096_d1) (m ((c : Thread nD τ).loc main_arg3)) (m ((c : Thread nD τ).loc main_arg7)) (m ((c : Thread nD τ).loc main_arg4)) (m ((c : Thread nD τ).loc main_arg8)) (m ((c : Thread nD τ).loc main_arg2)) := by
  unfold cellArr
  rw [activations_eq, weights_f_eq, weights_c_eq, bias_f_eq, bias_c_eq, V_main_arg2]

/-- The new hidden state, from the arguments. -/
theorem hiddenArr_eq (c : Dev nD) :
    hiddenArr m c = Cert.Lstm.newH (concatenate S8192x4096 1 [⟨S8192x2048, m ((c : Thread nD τ).loc main_arg0)⟩, ⟨S8192x2048, m ((c : Thread nD τ).loc main_arg1)⟩] concatenates_S8192x2048_S8192x2048_S8192x4096_d1) (m ((c : Thread nD τ).loc main_arg3)) (m ((c : Thread nD τ).loc main_arg5)) (m ((c : Thread nD τ).loc main_arg7)) (m ((c : Thread nD τ).loc main_arg4)) (m ((c : Thread nD τ).loc main_arg6)) (m ((c : Thread nD τ).loc main_arg8)) (m ((c : Thread nD τ).loc main_arg2)) := by
  unfold hiddenArr
  rw [activations_eq, weights_f_eq, weights_o_eq, weights_c_eq, bias_f_eq, bias_o_eq, bias_c_eq, V_main_arg2]

/-! ## The run, read -/

/-- The kernel's run: the first result the new hidden state, the second the new cell state, the arguments unchanged. -/
theorem run : θ_run (defs (F := Ideal)) (onTc (τ := τ) (main (F := Ideal))) ⟨m, fun _ => 0, ρ⟩ fun r => ∀ c : Dev nD,
      r.2.mem ((c : Thread nD τ).loc main_v8_0) = Cert.Lstm.newH (concatenate S8192x4096 1 [⟨S8192x2048, m ((c : Thread nD τ).loc main_arg0)⟩, ⟨S8192x2048, m ((c : Thread nD τ).loc main_arg1)⟩] concatenates_S8192x2048_S8192x2048_S8192x4096_d1) (m ((c : Thread nD τ).loc main_arg3)) (m ((c : Thread nD τ).loc main_arg5)) (m ((c : Thread nD τ).loc main_arg7)) (m ((c : Thread nD τ).loc main_arg4)) (m ((c : Thread nD τ).loc main_arg6)) (m ((c : Thread nD τ).loc main_arg8)) (m ((c : Thread nD τ).loc main_arg2))
      ∧ r.2.mem ((c : Thread nD τ).loc main_v8_1) = Cert.Lstm.newC (concatenate S8192x4096 1 [⟨S8192x2048, m ((c : Thread nD τ).loc main_arg0)⟩, ⟨S8192x2048, m ((c : Thread nD τ).loc main_arg1)⟩] concatenates_S8192x2048_S8192x2048_S8192x4096_d1) (m ((c : Thread nD τ).loc main_arg3)) (m ((c : Thread nD τ).loc main_arg7)) (m ((c : Thread nD τ).loc main_arg4)) (m ((c : Thread nD τ).loc main_arg8)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8) :=
  (θ_run (defs (F := Ideal)) _ _).mono (fun r h c => ⟨(h c).1.trans ((final8 m c).trans (hiddenArr_eq m c)),
      (h c).2.1.trans ((final9 m c).trans (cellArr_eq m c)), (h c).2.2⟩)
    (Value.run_blocks m ρ)

end Cert.KernelIdeal.Whole

end
-- ==== Proof.RefCell.lean ====
/-
  The reference's two results are the LSTM cell's functions of the arguments.

  The reference joins the three weight matrices row-wise into one 6144 × 4096 matrix and the three biases into one vector
  of 6144, multiplies the activations [x_t | h_{t-1}] by the transpose of the joined matrix in one product, adds the joined
  bias to every row, and cuts the 6144 columns into three runs of 2048. Column 2048·g + j of that product reads row j of the
  g-th weight matrix and entry j of the g-th bias, so each run is one gate's pre-activation `gate`. The host spells the
  sigmoid as 1 / (1 + e^(-x)), which is `Ideal.logistic` once the constant's bit pattern is read as the number one.
-/
import proofs.«146085_j77962246357481_1_alg».proof.Proof.Gen.ReferenceIdeal.Read
import proofs.«146085_j77962246357481_1_alg».proof.Proof.Cell
import Idealize.ShloMosaic.Lib.ValueIdx
import Idealize.ShloMosaic.Lib.Pipeline.Value
import Idealize.ShloMosaic.Lib.IdealHost

noncomputable section

open scoped BigOperators

namespace Cert.ReferenceIdeal.Cell

open Cert.ReferenceIdeal Cert.ReferenceIdeal.Gen Cert.ReferenceIdeal.Read Idealize.ShloMosaic Idealize.ShloMosaic.ValueIdx

variable (x0 x1 x2 : (⟨S8192x2048, .f32⟩ : BufTy).Contents (Elt Ideal))
  (x3 x5 x7 : (⟨S2048x4096, .f32⟩ : BufTy).Contents (Elt Ideal))
  (x4 x6 x8 : (⟨S2048, .f32⟩ : BufTy).Contents (Elt Ideal))

/-! ## The joined weights and biases, read at a row of one piece -/

/-- Rows 0 … 2047 of the joined weights are the first matrix. -/
theorem weights_first (J : S6144x4096.Idx) (j : Fin 2048) (k : Fin 4096) (h0 : (J 0).val = j.val) (h1 : (J 1).val = k.val) :
    val_main_v1 (F := Ideal) x3 x5 x7 J = x3 (ix2 j k) := by
  unfold val_main_v1
  refine concatenate_apply_piece (α := Elt Ideal .f32) (t := S6144x4096) (0 : Fin 2) [⟨S2048x4096, x3⟩, ⟨S2048x4096, x5⟩, ⟨S2048x4096, x7⟩] concatenates_S2048x4096_S2048x4096_S2048x4096_S6144x4096_d0 J 0 (by show (0 : ℕ) < 3; omega) S2048x4096 x3 rfl rfl 0 rfl (ix2 j k) (fun b hb => ?_) ?_
  · match b with
    | ⟨0, _⟩ => exact absurd rfl hb
    | ⟨1, _⟩ => exact h1.symm
  · show 0 + j.val = (J 0).val
    omega

/-- Rows 2048 … 4095 of the joined weights are the second matrix. -/
theorem weights_second (J : S6144x4096.Idx) (j : Fin 2048) (k : Fin 4096) (h0 : (J 0).val = 2048 + j.val) (h1 : (J 1).val = k.val) :
    val_main_v1 (F := Ideal) x3 x5 x7 J = x5 (ix2 j k) := by
  unfold val_main_v1
  refine concatenate_apply_piece (α := Elt Ideal .f32) (t := S6144x4096) (0 : Fin 2) [⟨S2048x4096, x3⟩, ⟨S2048x4096, x5⟩, ⟨S2048x4096, x7⟩] concatenates_S2048x4096_S2048x4096_S2048x4096_S6144x4096_d0 J 1 (by show (1 : ℕ) < 3; omega) S2048x4096 x5 rfl rfl 2048 rfl (ix2 j k) (fun b hb => ?_) ?_
  · match b with
    | ⟨0, _⟩ => exact absurd rfl hb
    | ⟨1, _⟩ => exact h1.symm
  · show 2048 + j.val = (J 0).val
    omega

/-- Rows 4096 … 6143 of the joined weights are the third matrix. -/
theorem weights_third (J : S6144x4096.Idx) (j : Fin 2048) (k : Fin 4096) (h0 : (J 0).val = 4096 + j.val) (h1 : (J 1).val = k.val) :
    val_main_v1 (F := Ideal) x3 x5 x7 J = x7 (ix2 j k) := by
  unfold val_main_v1
  refine concatenate_apply_piece (α := Elt Ideal .f32) (t := S6144x4096) (0 : Fin 2) [⟨S2048x4096, x3⟩, ⟨S2048x4096, x5⟩, ⟨S2048x4096, x7⟩] concatenates_S2048x4096_S2048x4096_S2048x4096_S6144x4096_d0 J 2 (by show (2 : ℕ) < 3; omega) S2048x4096 x7 rfl rfl 4096 rfl (ix2 j k) (fun b hb => ?_) ?_
  · match b with
    | ⟨0, _⟩ => exact absurd rfl hb
    | ⟨1, _⟩ => exact h1.symm
  · show 4096 + j.val = (J 0).val
    omega

/-- Entries 0 … 2047 of the joined bias are the first bias. -/
theorem bias_first (J : S6144.Idx) (j : Fin 2048) (h0 : (J 0).val = j.val) :
    val_main_v2 (F := Ideal) x4 x6 x8 J = x4 (ix1 j) := by
  unfold val_main_v2
  refine concatenate_apply_piece (α := Elt Ideal .f32) (t := S6144) (0 : Fin 1) [⟨S2048, x4⟩, ⟨S2048, x6⟩, ⟨S2048, x8⟩] concatenates_S2048_S2048_S2048_S6144_d0 J 0 (by show (0 : ℕ) < 3; omega) S2048 x4 rfl rfl 0 rfl (ix1 j) (fun b hb => ?_) ?_
  · match b with
    | ⟨0, _⟩ => exact absurd rfl hb
  · show 0 + j.val = (J 0).val
    omega

/-- Entries 2048 … 4095 of the joined bias are the second bias. -/
theorem bias_second (J : S6144.Idx) (j : Fin 2048) (h0 : (J 0).val = 2048 + j.val) :
    val_main_v2 (F := Ideal) x4 x6 x8 J = x6 (ix1 j) := by
  unfold val_main_v2
  refine concatenate_apply_piece (α := Elt Ideal .f32) (t := S6144) (0 : Fin 1) [⟨S2048, x4⟩, ⟨S2048, x6⟩, ⟨S2048, x8⟩] concatenates_S2048_S2048_S2048_S6144_d0 J 1 (by show (1 : ℕ) < 3; omega) S2048 x6 rfl rfl 2048 rfl (ix1 j) (fun b hb => ?_) ?_
  · match b with
    | ⟨0, _⟩ => exact absurd rfl hb
  · show 2048 + j.val = (J 0).val
    omega

/-- Entries 4096 … 6143 of the joined bias are the third bias. -/
theorem bias_third (J : S6144.Idx) (j : Fin 2048) (h0 : (J 0).val = 4096 + j.val) :
    val_main_v2 (F := Ideal) x4 x6 x8 J = x8 (ix1 j) := by
  unfold val_main_v2
  refine concatenate_apply_piece (α := Elt Ideal .f32) (t := S6144) (0 : Fin 1) [⟨S2048, x4⟩, ⟨S2048, x6⟩, ⟨S2048, x8⟩] concatenates_S2048_S2048_S2048_S6144_d0 J 2 (by show (2 : ℕ) < 3; omega) S2048 x8 rfl rfl 4096 rfl (ix1 j) (fun b hb => ?_) ?_
  · match b with
    | ⟨0, _⟩ => exact absurd rfl hb
  · show 4096 + j.val = (J 0).val
    omega

/-! ## The three column runs of the one product are the three gates' pre-activations -/

/-- The joined product plus bias at column `J 1` of batch row `r`, for a column that is entry `j` of a piece whose weights
    are `W` and bias `b` there. -/
theorem joined_at (W : (⟨S2048x4096, .f32⟩ : BufTy).Contents (Elt Ideal)) (b : (⟨S2048, .f32⟩ : BufTy).Contents (Elt Ideal))
    (I : S8192x6144.Idx) (r : Fin 8192) (j : Fin 2048) (hr : (I 0).val = r.val)
    (hW : ∀ k : Fin 4096, val_main_v1 (F := Ideal) x3 x5 x7 (idx_main_v3 (ridx_main_v4 I k)) = W (ix2 j k))
    (hb : val_main_v2 (F := Ideal) x4 x6 x8 (idx_main_v5 (idx_main_v6 I)) = b (ix1 j)) :
    val_main_v7 (F := Ideal) x0 x1 x3 x4 x5 x6 x7 x8 I = Cert.Lstm.gate (val_main_v0 (F := Ideal) x0 x1) W b r j := by
  rw [val_main_v7_apply, val_main_v4_apply, val_main_v6_apply, val_main_v5_apply, hb]
  unfold Cert.Lstm.gate
  refine congrArg (· + b (ix1 j)) (Finset.sum_congr rfl fun k _ => ?_)
  rw [val_main_v3_apply, hW k]
  refine congrArg (fun z => val_main_v0 (F := Ideal) x0 x1 z * W (ix2 j k)) (funext fun a => Fin.ext ?_)
  match a with
  | ⟨0, _⟩ => exact hr
  | ⟨1, _⟩ => rfl

/-- Columns 0 … 2047: the forget gate. -/
theorem forget_at (r : Fin 8192) (j : Fin 2048) :
    val_main_v8 (F := Ideal) x0 x1 x3 x4 x5 x6 x7 x8 (ix2 r j) = Cert.Lstm.gate (val_main_v0 (F := Ideal) x0 x1) x3 x4 r j := by
  rw [val_main_v8_apply]
  exact joined_at x0 x1 x3 x5 x7 x4 x6 x8 x3 x4 _ r j rfl
    (fun k => weights_first x3 x5 x7 _ j k rfl rfl) (bias_first x4 x6 x8 _ j rfl)

/-- Columns 2048 … 4095: the output gate. -/
theorem output_at (r : Fin 8192) (j : Fin 2048) :
    val_main_v9 (F := Ideal) x0 x1 x3 x4 x5 x6 x7 x8 (ix2 r j) = Cert.Lstm.gate (val_main_v0 (F := Ideal) x0 x1) x5 x6 r j := by
  rw [val_main_v9_apply]
  exact joined_at x0 x1 x3 x5 x7 x4 x6 x8 x5 x6 _ r j rfl
    (fun k => weights_second x3 x5 x7 _ j k rfl rfl) (bias_second x4 x6 x8 _ j rfl)

/-- Columns 4096 … 6143: the candidate. -/
theorem candidate_at (r : Fin 8192) (j : Fin 2048) :
    val_main_v10 (F := Ideal) x0 x1 x3 x4 x5 x6 x7 x8 (ix2 r j) = Cert.Lstm.gate (val_main_v0 (F := Ideal) x0 x1) x7 x8 r j := by
  rw [val_main_v10_apply]
  exact joined_at x0 x1 x3 x5 x7 x4 x6 x8 x7 x8 _ r j rfl
    (fun k => weights_third x3 x5 x7 _ j k rfl rfl) (bias_third x4 x6 x8 _ j rfl)

/-! ## The host's sigmoid, and the two results -/

/-- The host's 1 / (1 + e^(-x)), with both ones the constant's bit pattern, is the sigmoid. -/
theorem sigmoid_eq (z : EReal) :
    Ideal.div (Ideal.ofBits .f32 0x3F800000#32) (Ideal.ofBits .f32 0x3F800000#32 + Ideal.exp (-z)) = Ideal.logistic z := by
  rw [Ideal.ofBits_one_f32]
  rfl

/-- The forget gate's activation. -/
theorem v16_at (i : S8192x2048.Idx) :
    val_main_v16 (F := Ideal) x0 x1 x3 x4 x5 x6 x7 x8 i = Ideal.logistic (val_main_v8 (F := Ideal) x0 x1 x3 x4 x5 x6 x7 x8 i) := by
  rw [val_main_v16_apply, val_main_v15_apply, val_main_cst_0_apply, val_main_v14_apply, val_main_v13_apply, val_main_cst_apply,
    val_main_v12_apply, val_main_v11_apply]
  exact sigmoid_eq _

/-- The output gate's activation. -/
theorem v24_at (i : S8192x2048.Idx) :
    val_main_v24 (F := Ideal) x0 x1 x3 x4 x5 x6 x7 x8 i = Ideal.logistic (val_main_v9 (F := Ideal) x0 x1 x3 x4 x5 x6 x7 x8 i) := by
  rw [val_main_v24_apply, val_main_v23_apply, val_main_cst_3_apply, val_main_v22_apply, val_main_v21_apply, val_main_cst_2_apply,
    val_main_v20_apply, val_main_v19_apply]
  exact sigmoid_eq _

/-- The new cell state, from the forget and candidate runs. -/
theorem v28_at (i : S8192x2048.Idx) :
    val_main_v28 (F := Ideal) x0 x1 x2 x3 x4 x5 x6 x7 x8 i
      = Cert.Lstm.cellC (val_main_v8 (F := Ideal) x0 x1 x3 x4 x5 x6 x7 x8 i) (val_main_v10 (F := Ideal) x0 x1 x3 x4 x5 x6 x7 x8 i) (x2 i) := by
  rw [val_main_v28_apply, val_main_v26_apply, val_main_v27_apply, val_main_v18_apply, val_main_v17_apply, val_main_cst_1_apply,
    val_main_v25_apply, v16_at]
  show Ideal.logistic _ * x2 i + (Ideal.ofBits .f32 0x3F800000#32 - Ideal.logistic _) * Ideal.tanh _ = _
  rw [Ideal.ofBits_one_f32]
  rfl

/-- The new hidden state, from the output run and the new cell state. -/
theorem v30_at (i : S8192x2048.Idx) :
    val_main_v30 (F := Ideal) x0 x1 x2 x3 x4 x5 x6 x7 x8 i
      = Cert.Lstm.cellH (val_main_v9 (F := Ideal) x0 x1 x3 x4 x5 x6 x7 x8 i) (val_main_v28 (F := Ideal) x0 x1 x2 x3 x4 x5 x6 x7 x8 i) := by
  rw [val_main_v30_apply, val_main_v29_apply, v24_at]
  rfl

/-- The reference's second result is the new cell-state array. -/
theorem cell_state_eq :
    val_main_v28 (F := Ideal) x0 x1 x2 x3 x4 x5 x6 x7 x8 = Cert.Lstm.newC (val_main_v0 (F := Ideal) x0 x1) x3 x7 x4 x8 x2 := by
  funext i
  obtain ⟨r, j, rfl⟩ : ∃ (r : Fin 8192) (j : Fin 2048), i = ix2 r j := ⟨i 0, i 1, eq_ix2 i⟩
  rw [Cert.Lstm.newC_ix2, v28_at, forget_at, candidate_at]
  rfl

/-- The reference's first result is the new hidden-state array. -/
theorem hidden_state_eq :
    val_main_v30 (F := Ideal) x0 x1 x2 x3 x4 x5 x6 x7 x8 = Cert.Lstm.newH (val_main_v0 (F := Ideal) x0 x1) x3 x5 x7 x4 x6 x8 x2 := by
  funext i
  obtain ⟨r, j, rfl⟩ : ∃ (r : Fin 8192) (j : Fin 2048), i = ix2 r j := ⟨i 0, i 1, eq_ix2 i⟩
  rw [Cert.Lstm.newH_ix2, v30_at, output_at, cell_state_eq, Cert.Lstm.newC_ix2]
  rfl

end Cert.ReferenceIdeal.Cell

end
-- ==== Proof.lean ====
/-
  A coupled-gate LSTM cell: the tiled kernel against the one-product reference, on the extended reals.

  Both programs compute, for batch row r and hidden unit j, the three pre-activations
      g(W, b) = (Σ_k [x_t | h_{t-1}][r,k] · W[j,k]) + b[j]        for (W_f, b_f), (W_o, b_o), (W_c, b_c),
  then f = σ(g_f), c' = f · c + (1 - f) · tanh(g_c) and h' = σ(g_o) · tanh(c'), and return (h', c').
  The kernel does it tile by tile, 512 batch rows by 256 hidden units at a time, with one product per gate against the
  transposed weight tile; the reference joins the three weight matrices and the three biases, takes ONE product with the
  transposed join and cuts its 6144 columns into the three gates. A column of the joined product is a row of one weight
  matrix, so the two are the same sums term by term; the sigmoid is one function whether written as one operation or as
  1 / (1 + e^(-x)); a change of float format is the identity here. No algebraic law that needs finite inputs is used, so the
  precondition is never opened. The idealization rewrote nothing, so it preserves the kernel trivially.
-/
import proofs.«146085_j77962246357481_1_alg».proof.Defs
import proofs.«146085_j77962246357481_1_alg».proof.Proof.Gen.Kernel
import proofs.«146085_j77962246357481_1_alg».proof.Proof.Gen.Kernel.Skeleton
import proofs.«146085_j77962246357481_1_alg».proof.Proof.Gen.Kernel.Launch
import proofs.«146085_j77962246357481_1_alg».proof.Proof.Gen.Kernel.Points
import proofs.«146085_j77962246357481_1_alg».proof.Proof.Gen.Kernel.Frame
import proofs.«146085_j77962246357481_1_alg».proof.Proof.Gen.KernelIdeal
import proofs.«146085_j77962246357481_1_alg».proof.Proof.Gen.KernelIdeal.Skeleton
import proofs.«146085_j77962246357481_1_alg».proof.Proof.Gen.KernelIdeal.Launch
import proofs.«146085_j77962246357481_1_alg».proof.Proof.Gen.KernelIdeal.Points
import proofs.«146085_j77962246357481_1_alg».proof.Proof.Gen.KernelIdeal.Frame
import proofs.«146085_j77962246357481_1_alg».proof.Proof.Gen.ReferenceIdeal
import proofs.«146085_j77962246357481_1_alg».proof.Proof.Gen.Pre_finite_inputs
import proofs.«146085_j77962246357481_1_alg».proof.Proof.Gen.KernelIdeal.Value
import proofs.«146085_j77962246357481_1_alg».proof.Proof.Gen.ReferenceIdeal.Run
import proofs.«146085_j77962246357481_1_alg».proof.Proof.Gen.ReferenceIdeal.Read
import proofs.«146085_j77962246357481_1_alg».proof.Proof.Whole
import proofs.«146085_j77962246357481_1_alg».proof.Proof.RefCell
import Idealize.ShloMosaic.Adequacy
import Idealize.ShloMosaic.Init

noncomputable section

namespace Cert.Proof

open Idealize.ShloMosaic Idealize.ShloMosaic.TcCoe Idealize.SL.Sem

/-- The word-level kernel runs and leaves its arguments as they were. -/
theorem frame_kernel : Cert.frame_Kernel := fun m ρ _ => Cert.Kernel.Gen.frame m ρ

/-- So does the kernel read on the extended reals. -/
theorem frame_kernel_ideal : Cert.frame_KernelIdeal := fun m ρ _ => Cert.KernelIdeal.Gen.frame m ρ

/-- The reference is a straight line of host operations: its run, with the two results dropped. -/
theorem frame_reference : Cert.frame_ReferenceIdeal := fun m ρ _ =>
  (θ_run Cert.ReferenceIdeal.defs _ _).mono (fun _ h c => (h c).2.2) (Cert.ReferenceIdeal.Value.run (F := Ideal) m ρ)

/-- Both programs end with the new hidden state and the new cell state of the same arguments. -/
theorem algebraic : Cert.algebraic_KernelIdeal_ReferenceIdeal := by
  intro m ρ m' ρ' _ hagree
  refine ⟨_, _, Cert.KernelIdeal.Whole.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · obtain ⟨h0, h1, h2, h3, h4, h5, h6, h7, h8⟩ := hagree c
    rw [Cert.ReferenceIdeal.Read.val_main_v30_eq, Cert.ReferenceIdeal.Cell.hidden_state_eq, h0, h1, h2, h3, h4, h5, h6, h7, h8]
    rfl
  · obtain ⟨h0, h1, h2, h3, h4, h5, h6, h7, h8⟩ := hagree c
    rw [Cert.ReferenceIdeal.Read.val_main_v28_eq, Cert.ReferenceIdeal.Cell.cell_state_eq, h0, h1, h2, h3, h4, h7, h8]
    rfl

theorem claim : Cert.Claim := ⟨Cert.Kernel.Gen.facts, Cert.KernelIdeal.Gen.facts, Cert.ReferenceIdeal.Gen.facts, Cert.Pre_finite_inputs.Gen.facts,
  frame_kernel, frame_kernel_ideal, frame_reference, trivial, algebraic⟩

end Cert.Proof

end
